-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v8)) (v1 : (c : Dev Cert.KernelIdeal.nD) → Buf (Elt Ideal) ((c.tc : Thread Cert.KernelIdeal.nD Cert.KernelIdeal.τ).loc Cert.KernelIdeal.main_v10)) (v2 : (c : Dev Cert.KernelIdeal.nD) → Buf (Elt Ideal) ((c.tc : Thread Cert.KernelIdeal.nD Cert.KernelIdeal.τ).loc Cert.KernelIdeal.main_v12)) (v3 : (c : Dev Cert.KernelIdeal.nD) → Buf (Elt Ideal) ((c.tc : Thread Cert.KernelIdeal.nD Cert.KernelIdeal.τ).loc Cert.KernelIdeal.main_v14)) (v4 : (c : Dev Cert.KernelIdeal.nD) → Buf (Elt Ideal) ((c.tc : Thread Cert.KernelIdeal.nD Cert.KernelIdeal.τ).loc Cert.KernelIdeal.main_v16)) (v5 : (c : Dev Cert.KernelIdeal.nD) → Buf (Elt Ideal) ((c.tc : Thread Cert.KernelIdeal.nD Cert.KernelIdeal.τ).loc Cert.KernelIdeal.main_v18)) (v6 : (c : Dev Cert.KernelIdeal.nD) → Buf (Elt Ideal) ((c.tc : Thread Cert.KernelIdeal.nD Cert.KernelIdeal.τ).loc Cert.KernelIdeal.main_v20)) (v7 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_v10) = v1 c
          ∧ r.2.mem ((c.tc : Thread Cert.KernelIdeal.nD Cert.KernelIdeal.τ).loc Cert.KernelIdeal.main_v12) = v2 c
          ∧ r.2.mem ((c.tc : Thread Cert.KernelIdeal.nD Cert.KernelIdeal.τ).loc Cert.KernelIdeal.main_v14) = v3 c
          ∧ r.2.mem ((c.tc : Thread Cert.KernelIdeal.nD Cert.KernelIdeal.τ).loc Cert.KernelIdeal.main_v16) = v4 c
          ∧ r.2.mem ((c.tc : Thread Cert.KernelIdeal.nD Cert.KernelIdeal.τ).loc Cert.KernelIdeal.main_v18) = v5 c
          ∧ r.2.mem ((c.tc : Thread Cert.KernelIdeal.nD Cert.KernelIdeal.τ).loc Cert.KernelIdeal.main_v20) = v6 c
          ∧ r.2.mem ((c.tc : Thread Cert.KernelIdeal.nD Cert.KernelIdeal.τ).loc Cert.KernelIdeal.main_v22) = v7 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_v5) = v1 c
          ∧ r.2.mem ((c.tc : Thread Cert.ReferenceIdeal.nD Cert.ReferenceIdeal.τ).loc Cert.ReferenceIdeal.main_v7) = v2 c
          ∧ r.2.mem ((c.tc : Thread Cert.ReferenceIdeal.nD Cert.ReferenceIdeal.τ).loc Cert.ReferenceIdeal.main_v9) = v3 c
          ∧ r.2.mem ((c.tc : Thread Cert.ReferenceIdeal.nD Cert.ReferenceIdeal.τ).loc Cert.ReferenceIdeal.main_v11) = v4 c
          ∧ r.2.mem ((c.tc : Thread Cert.ReferenceIdeal.nD Cert.ReferenceIdeal.τ).loc Cert.ReferenceIdeal.main_v13) = v5 c
          ∧ r.2.mem ((c.tc : Thread Cert.ReferenceIdeal.nD Cert.ReferenceIdeal.τ).loc Cert.ReferenceIdeal.main_v15) = v6 c
          ∧ r.2.mem ((c.tc : Thread Cert.ReferenceIdeal.nD Cert.ReferenceIdeal.τ).loc Cert.ReferenceIdeal.main_v17) = v7 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S8x64x4096 : Shape := ⟨3, ![8, 64, 4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S8x64x4096 : S_.BroadcastsInDim S8x64x4096 (![] : Fin 0 → Fin S8x64x4096.rank)
  reducesTo_S8x64x4096_S_d0_1_2 : S8x64x4096.ReducesTo [0, 1, 2] S_

variable [Facts]

def fn {F : FTy → Type} [FloatOps F] (main_arg0 : FVec F S4x2048x4096 .f32) (main_arg1 : FVec F S8x64x4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S8x64x4096 .f32 := Host.absf main_arg1
  let main_cst_0 : FVec F S_ .f32 := constant S_ .f32 0x7F800000#32
  let main_v5 : FVec F S8x64x4096 .f32 := broadcastInDim S8x64x4096 ![] bcast_S_S8x64x4096 main_cst_0
  let main_v6 : IVec S8x64x4096 1 := cmpf .olt main_v4 main_v5
  let main_c_1 : IVec S_ 1 := constantI S_ 1 1#1
  let main_v7 : IVec S_ 1 := (fun x v => Host.reduce IntOp.andi x v reducesTo_S8x64x4096_S_d0_1_2 h_S_) main_v6 main_c_1
  let main_v8 : IVec S_ 1 := andi main_v3 main_v7
  main_v8
-- ==== Kernel.lean ====
abbrev S4x2048x4096 : Shape := ⟨3, ![4, 2048, 4096]⟩
abbrev S8x64x4096 : Shape := ⟨3, ![8, 64, 4096]⟩
abbrev S8192x4096 : Shape := ⟨2, ![8192, 4096]⟩
abbrev S512x4096 : Shape := ⟨2, ![512, 4096]⟩
abbrev S4096x512 : Shape := ⟨2, ![4096, 512]⟩
abbrev S8192x512 : Shape := ⟨2, ![8192, 512]⟩
abbrev S512x512 : Shape := ⟨2, ![512, 512]⟩
abbrev S4x2048x8x64 : Shape := ⟨4, ![4, 2048, 8, 64]⟩
abbrev S8x4x2048x64 : Shape := ⟨4, ![8, 4, 2048, 64]⟩
abbrev S1x4x2048x64 : Shape := ⟨4, ![1, 4, 2048, 64]⟩
abbrev S4x2048x64 : Shape := ⟨3, ![4, 2048, 64]⟩

abbrev nBuf : Space → Nat
  | .hbm => 25
  | .vmem => 5
  | .smem => 0
  | _ => 0

abbrev bufTy : (tb : Table) → Fin (tcTables nBuf tb) → BufTy
  | .hbm, ⟨0, _⟩ => ⟨S4x2048x4096, .f32⟩
  | .hbm, ⟨1, _⟩ => ⟨S8x64x4096, .f32⟩
  | .hbm, ⟨2, _⟩ => ⟨S8192x4096, .f32⟩
  | .hbm, ⟨3, _⟩ => ⟨S512x4096, .f32⟩
  | .hbm, ⟨4, _⟩ => ⟨S4096x512, .f32⟩
  | .hbm, ⟨5, _⟩ => ⟨S4096x512, .bf16⟩
  | .hbm, ⟨6, _⟩ => ⟨S8192x512, .f32⟩
  | .hbm, ⟨7, _⟩ => ⟨S4x2048x8x64, .f32⟩
  | .hbm, ⟨8, _⟩ => ⟨S8x4x2048x64, .f32⟩
  | .hbm, ⟨9, _⟩ => ⟨S1x4x2048x64, .f32⟩
  | .hbm, ⟨10, _⟩ => ⟨S4x2048x64, .f32⟩
  | .hbm, ⟨11, _⟩ => ⟨S1x4x2048x64, .f32⟩
  | .hbm, ⟨12, _⟩ => ⟨S4x2048x64, .f32⟩
  | .hbm, ⟨13, _⟩ => ⟨S1x4x2048x64, .f32⟩
  | .hbm, ⟨14, _⟩ => ⟨S4x2048x64, .f32⟩
  | .hbm, ⟨15, _⟩ => ⟨S1x4x2048x64, .f32⟩
  | .hbm, ⟨16, _⟩ => ⟨S4x2048x64, .f32⟩
  | .hbm, ⟨17, _⟩ => ⟨S1x4x2048x64, .f32⟩
  | .hbm, ⟨18, _⟩ => ⟨S4x2048x64, .f32⟩
  | .hbm, ⟨19, _⟩ => ⟨S1x4x2048x64, .f32⟩
  | .hbm, ⟨20, _⟩ => ⟨S4x2048x64, .f32⟩
  | .hbm, ⟨21, _⟩ => ⟨S1x4x2048x64, .f32⟩
  | .hbm, ⟨22, _⟩ => ⟨S4x2048x64, .f32⟩
  | .hbm, ⟨23, _⟩ => ⟨S1x4x2048x64, .f32⟩
  | .hbm, ⟨24, _⟩ => ⟨S4x2048x64, .f32⟩
  | .local _ .vmem, ⟨0, _⟩ => ⟨S512x4096, .f32⟩
  | .local _ .vmem, ⟨1, _⟩ => ⟨S512x4096, .f32⟩
  | .local _ .vmem, ⟨2, _⟩ => ⟨S4096x512, .bf16⟩
  | .local _ .vmem, ⟨3, _⟩ => ⟨S512x512, .f32⟩
  | .local _ .vmem, ⟨4, _⟩ => ⟨S512x512, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S4x2048x4096_S8192x4096 : S4x2048x4096.ShapeCasts S8192x4096
  shapeCasts_S8x64x4096_S512x4096 : S8x64x4096.ShapeCasts S512x4096
  transposes_S512x4096_S4096x512_1_0 : S512x4096.Transposes [1, 0] S4096x512
  bitsLt_bf16_f32 : FTy.bits .bf16 < FTy.bits .f32
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S4096x512_S4096x512_0_0 : ∀ a, (![0, 0] : Fin 2 → Nat) a + S4096x512.size a ≤ S4096x512.size a
  h_S4096x512 : 0 < S4096x512.numel
  shapeCasts_S4096x512_S4096x512 : S4096x512.ShapeCasts S4096x512
  inb_S512x512_S512x512_0_0 : ∀ a, (![0, 0] : Fin 2 → Nat) a + S512x512.size a ≤ S512x512.size a
  h_S512x512 : 0 < S512x512.numel
  shapeCasts_S8192x512_S4x2048x8x64 : S8192x512.ShapeCasts S4x2048x8x64
  transposes_S4x2048x8x64_S8x4x2048x64_2_0_1_3 : S4x2048x8x64.Transposes [2, 0, 1, 3] S8x4x2048x64
  slices_S8x4x2048x64_S1x4x2048x64_0_0_0_0 : S8x4x2048x64.Slices ![0, 0, 0, 0] S1x4x2048x64
  shapeCasts_S1x4x2048x64_S4x2048x64 : S1x4x2048x64.ShapeCasts S4x2048x64
  slices_S8x4x2048x64_S1x4x2048x64_1_0_0_0 : S8x4x2048x64.Slices ![1, 0, 0, 0] S1x4x2048x64
  slices_S8x4x2048x64_S1x4x2048x64_2_0_0_0 : S8x4x2048x64.Slices ![2, 0, 0, 0] S1x4x2048x64
  slices_S8x4x2048x64_S1x4x2048x64_3_0_0_0 : S8x4x2048x64.Slices ![3, 0, 0, 0] S1x4x2048x64
  slices_S8x4x2048x64_S1x4x2048x64_4_0_0_0 : S8x4x2048x64.Slices ![4, 0, 0, 0] S1x4x2048x64
  slices_S8x4x2048x64_S1x4x2048x64_5_0_0_0 : S8x4x2048x64.Slices ![5, 0, 0, 0] S1x4x2048x64
  slices_S8x4x2048x64_S1x4x2048x64_6_0_0_0 : S8x4x2048x64.Slices ![6, 0, 0, 0] S1x4x2048x64
  slices_S8x4x2048x64_S1x4x2048x64_7_0_0_0 : S8x4x2048x64.Slices ![7, 0, 0, 0] S1x4x2048x64
  dot_S512x4096_S4096x512_S512x512_1_0_0_1_n_n_wf : DotDims.WF S512x4096 S4096x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .f32 = 32 ∨ (Rect.block (s := S8192x4096) S512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x512.size a ≤ S4096x512.size a
  hwx0_1 : ∀ i : grid0.Coords, EltTy.bits .bf16 = 32 ∨ (Rect.block (s := S4096x512) S4096x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S8192x512.size a
  hwx0_2 : ∀ i : grid0.Coords, EltTy.bits .f32 = 32 ∨ (Rect.block (s := S8192x512) S512x512.size (cc0_transform_2 i) (hinb0_2 i)).WholeWords (EltTy.packing .f32)

variable [Facts₀]

def dot_S512x4096_S4096x512_S512x512_1_0_0_1_n_n : DotDims S512x4096 S4096x512 S512x512 where
  lhsContracting := [1]
  rhsContracting := [0]
  lhsNonContracting := [0]
  rhsNonContracting := [1]
  lhsBatch := []
  rhsBatch := []
  wf := dot_S512x4096_S4096x512_S512x512_1_0_0_1_n_n_wf

abbrev win0_0 : Pipeline.Window sig grid0 :=
  Pipeline.Window.ofSpec (Memref.whole main_v0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S4096x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S512x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S8x64x4096 : Shape := ⟨3, ![8, 64, 4096]⟩
abbrev S8x64x4x2048 : Shape := ⟨4, ![8, 64, 4, 2048]⟩
abbrev S8x4x2048x64 : Shape := ⟨4, ![8, 4, 2048, 64]⟩
abbrev S1x4x2048x64 : Shape := ⟨4, ![1, 4, 2048, 64]⟩
abbrev S4x2048x64 : Shape := ⟨3, ![4, 2048, 64]⟩

abbrev nBuf : Space → Nat
  | .hbm => 20
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S8x64x4096, .f32⟩
  | .hbm, ⟨2, _⟩ => ⟨S8x64x4x2048, .f32⟩
  | .hbm, ⟨3, _⟩ => ⟨S8x4x2048x64, .f32⟩
  | .hbm, ⟨4, _⟩ => ⟨S1x4x2048x64, .f32⟩
  | .hbm, ⟨5, _⟩ => ⟨S4x2048x64, .f32⟩
  | .hbm, ⟨6, _⟩ => ⟨S1x4x2048x64, .f32⟩
  | .hbm, ⟨7, _⟩ => ⟨S4x2048x64, .f32⟩
  | .hbm, ⟨8, _⟩ => ⟨S1x4x2048x64, .f32⟩
  | .hbm, ⟨9, _⟩ => ⟨S4x2048x64, .f32⟩
  | .hbm, ⟨10, _⟩ => ⟨S1x4x2048x64, .f32⟩
  | .hbm, ⟨11, _⟩ => ⟨S4x2048x64, .f32⟩
  | .hbm, ⟨12, _⟩ => ⟨S1x4x2048x64, .f32⟩
  | .hbm, ⟨13, _⟩ => ⟨S4x2048x64, .f32⟩
  | .hbm, ⟨14, _⟩ => ⟨S1x4x2048x64, .f32⟩
  | .hbm, ⟨15, _⟩ => ⟨S4x2048x64, .f32⟩
  | .hbm, ⟨16, _⟩ => ⟨S1x4x2048x64, .f32⟩
  | .hbm, ⟨17, _⟩ => ⟨S4x2048x64, .f32⟩
  | .hbm, ⟨18, _⟩ => ⟨S1x4x2048x64, .f32⟩
  | .hbm, ⟨19, _⟩ => ⟨S4x2048x64, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩

abbrev nD : Nat := 1
abbrev τ : Topo := Topo.v7x

variable {F : FTy → Type} [FloatOps F]

class Facts₀ : Prop where
  transposes_S8x64x4x2048_S8x4x2048x64_0_2_3_1 : S8x64x4x2048.Transposes [0, 2, 3, 1] S8x4x2048x64
  slices_S8x4x2048x64_S1x4x2048x64_0_0_0_0 : S8x4x2048x64.Slices ![0, 0, 0, 0] S1x4x2048x64
  shapeCasts_S1x4x2048x64_S4x2048x64 : S1x4x2048x64.ShapeCasts S4x2048x64
  slices_S8x4x2048x64_S1x4x2048x64_1_0_0_0 : S8x4x2048x64.Slices ![1, 0, 0, 0] S1x4x2048x64
  slices_S8x4x2048x64_S1x4x2048x64_2_0_0_0 : S8x4x2048x64.Slices ![2, 0, 0, 0] S1x4x2048x64
  slices_S8x4x2048x64_S1x4x2048x64_3_0_0_0 : S8x4x2048x64.Slices ![3, 0, 0, 0] S1x4x2048x64
  slices_S8x4x2048x64_S1x4x2048x64_4_0_0_0 : S8x4x2048x64.Slices ![4, 0, 0, 0] S1x4x2048x64
  slices_S8x4x2048x64_S1x4x2048x64_5_0_0_0 : S8x4x2048x64.Slices ![5, 0, 0, 0] S1x4x2048x64
  slices_S8x4x2048x64_S1x4x2048x64_6_0_0_0 : S8x4x2048x64.Slices ![6, 0, 0, 0] S1x4x2048x64
  slices_S8x4x2048x64_S1x4x2048x64_7_0_0_0 : S8x4x2048x64.Slices ![7, 0, 0, 0] S1x4x2048x64
  dot_S8x64x4096_S4x2048x4096_S8x64x4x2048_2_2_01_01_n_n_wf : DotDims.WF S8x64x4096 S4x2048x4096 S8x64x4x2048 [2] [2] [0, 1] [0, 1] [] []

variable [Facts₀]

def dot_S8x64x4096_S4x2048x4096_S8x64x4x2048_2_2_01_01_n_n : DotDims S8x64x4096 S4x2048x4096 S8x64x4x2048 where
  lhsContracting := [2]
  rhsContracting := [2]
  lhsNonContracting := [0, 1]
  rhsNonContracting := [0, 1]
  lhsBatch := []
  rhsBatch := []
  wf := dot_S8x64x4096_S4x2048x4096_S8x64x4x2048_2_2_01_01_n_n_wf

class Facts : Prop extends Facts₀ where

variable [Facts]
-- ==== Proof.LibPlainDot.lean ====
/-
  A plain two-dimensional contraction read at one element over the extended reals.

  For the dimension numbers of an [M, K] by [K, N] product (the left operand's axis 1 contracted against the right
  operand's axis 0, no batch axis), entry (p, q) of the product is the sum over k of lhs (p, k) · rhs (k, q). This holds
  of a kernel's matrix product into a zero accumulator and of the host's dot_general alike, whatever the precision
  attribute: at the extended reals both are the textbook contraction. Generic in the three extents.
-/
import Idealize.ShloMosaic.PureOps.Ideal.Laws
import Idealize.ShloMosaic.Lib.ValueIdx

noncomputable section

namespace Cert.Lib.PlainDot

open Idealize.ShloMosaic Idealize.ShloMosaic.ValueIdx

variable (M K N : Nat)

/-- Axis 0 of the left operand is free: it reads the output's row coordinate. -/
theorem lhs_axis0 (i : (⟨2, ![M, N]⟩ : Shape).Idx) (r : (DotDims.plain M K N).contr.Idx) :
    ((DotDims.plain M K N).lhsIdx i r 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- Axis 1 of the left operand is the contracted one: it reads the contraction position. -/
theorem lhs_axis1 (i : (⟨2, ![M, N]⟩ : Shape).Idx) (r : (DotDims.plain M K N).contr.Idx) :
    ((DotDims.plain M K N).lhsIdx i r 1).val = (r ⟨0, Nat.one_pos⟩).val :=
  (DotDims.plain M K N).lhsIdx_val_of_single rfl i r

/-- Axis 0 of the right operand is the contracted one. -/
theorem rhs_axis0 (i : (⟨2, ![M, N]⟩ : Shape).Idx) (r : (DotDims.plain M K N).contr.Idx) :
    ((DotDims.plain M K N).rhsIdx i r 0).val = (r ⟨0, Nat.one_pos⟩).val :=
  (DotDims.plain M K N).rhsIdx_val_of_single rfl i r

/-- Axis 1 of the right operand is free: it reads the output's column coordinate. -/
theorem rhs_axis1 (i : (⟨2, ![M, N]⟩ : Shape).Idx) (r : (DotDims.plain M K N).contr.Idx) :
    ((DotDims.plain M K N).rhsIdx i r 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The contraction's sum over its one-axis index shape, re-indexed by that axis' coordinate: the sum over
    `k : Fin K` of lhs (p, k) · rhs (k, q). -/
theorem sum_eq (lhs : (⟨2, ![M, K]⟩ : Shape).Idx → EReal) (rhs : (⟨2, ![K, N]⟩ : Shape).Idx → EReal)
    (p : Fin M) (q : Fin N) :
    (∑ r : (DotDims.plain M K N).contr.Idx,
        lhs ((DotDims.plain M K N).lhsIdx (ix2 p q) r) * rhs ((DotDims.plain M K N).rhsIdx (ix2 p q) r))
      = ∑ k : Fin K, lhs (ix2 p k) * rhs (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_axis0 M K N _ _
      | ⟨1, _⟩ => exact (lhs_axis1 M K N _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs_axis0 M K N _ _).trans hk
      | ⟨1, _⟩ => exact rhs_axis1 M K N _ _)
  rw [el, er]

/-- A kernel's matrix product into the zero accumulator, at entry (p, q). -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact sum_eq M K N lhs rhs p q

/-- The host's dot_general, at entry (p, q). -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact sum_eq M K N lhs rhs p q

end Cert.Lib.PlainDot

end
-- ==== Proof.KernelBlock.lean ====
/-
  One grid point's work, read at one entry.

  At a grid point the body loads a [512, 4096] block of token rows and the whole [4096, 512] matrix of weight
  columns, narrows the rows to bf16 (no change of value over the extended reals), and stores their product into
  the zero accumulator. Entry (p, q) of what it stores is therefore Σ_k rows (p, k) · cols (k, q).
-/
import proofs.«172879_j14070312862079_1_alg».proof.Proof.Gen.KernelIdeal.Skeleton
import proofs.«172879_j14070312862079_1_alg».proof.Proof.LibPlainDot
import Idealize.ShloMosaic.Lib.Pipeline.Value

noncomputable section

namespace Cert.KernelIdeal.Block

open Idealize.ShloMosaic Idealize.ShloMosaic.TcCoe Idealize.ShloMosaic.ValueIdx
open Cert.KernelIdeal Cert.KernelIdeal.Gen

/-- The stored block at entry (p, q): the contraction of row p of the loaded rows with column q of the loaded
    columns. -/
theorem pay_apply (rows : Vec Ideal S512x4096 .f32) (cols : Vec Ideal S4096x512 .bf16) (p q : Fin 512) :
    k0_pay1 (F := Ideal) rows cols (ix2 p q) = ∑ k : Fin 4096, rows (ix2 p k) * cols (ix2 k q) := by
  unfold k0_pay1
  rw [shapeCast_self, shapeCast_self]
  exact Cert.Lib.PlainDot.matmul_zero_apply 512 4096 512 none _ _ p q

/-- The same at any index of the block, its two coordinates read off the index. -/
theorem pay_at (rows : Vec Ideal S512x4096 .f32) (cols : Vec Ideal S4096x512 .bf16) (j : S512x512.Idx) :
    k0_pay1 (F := Ideal) rows cols j = ∑ k : Fin 4096, rows (ix2 (j 0) k) * cols (ix2 k (j 1)) := by
  obtain ⟨p, q, rfl⟩ : ∃ (p q : Fin 512), j = ix2 p q := ⟨j 0, j 1, eq_ix2 j⟩
  exact pay_apply rows cols p q

end Cert.KernelIdeal.Block

end
-- ==== Proof.Experts.lean ====
/-
  Eight experts' low-rank projections of a batch of token rows, over the extended reals.

  The tokens are an array x[b, s, d] (4 batches of 2048 tokens, 4096 features) and the experts' weights an array
  W[e, r, d] (8 experts, 64 output rows each, torch Linear layout). Expert e maps token (b, s) to the 64 numbers
      proj x W e b s r = Σ_d x[b, s, d] · W[e, r, d].
  `stacked x W` holds all of them as one [8, 4, 2048, 64] array, and the program's e-th result is its slab e,
  reshaped to [4, 2048, 64] (`expert`).

  One way to compute the stack is a single matrix product: lay the tokens out as the 8192 rows of a matrix
  (row 2048·b + s), lay the 512 = 8·64 weight rows out as the COLUMNS of a [4096, 512] matrix (column 64·e + r),
  multiply, and read entry (2048·b + s, 64·e + r) back as (b, s, e, r), then move the expert axis to the front.
  `stacked_of_flat` says this is the stack: it is pure index arithmetic, each layout step read at one index, and
  the sum over d is the same sum on both sides term by term.
-/
import Idealize.ShloMosaic.PureOps.Ideal.Laws
import Idealize.ShloMosaic.Lib.ValueIdx
import Idealize.ShloMosaic.Lib.Pipeline.Value

noncomputable section

namespace Cert.Experts

open Idealize.ShloMosaic Idealize.ShloMosaic.ValueIdx

/-- The tokens x[b, s, d]. -/
abbrev Tokens : Shape := ⟨3, ![4, 2048, 4096]⟩
/-- The experts' weights W[e, r, d]. -/
abbrev Weights : Shape := ⟨3, ![8, 64, 4096]⟩
/-- The tokens as rows of a matrix. -/
abbrev Rows : Shape := ⟨2, ![8192, 4096]⟩
/-- The weight rows of all experts, one under the other. -/
abbrev WRows : Shape := ⟨2, ![512, 4096]⟩
/-- The same as columns. -/
abbrev WCols : Shape := ⟨2, ![4096, 512]⟩
/-- The one matrix product. -/
abbrev Flat : Shape := ⟨2, ![8192, 512]⟩
/-- Its entries as (b, s, e, r). -/
abbrev Split : Shape := ⟨4, ![4, 2048, 8, 64]⟩
/-- All experts' outputs, (e, b, s, r). -/
abbrev Stacked : Shape := ⟨4, ![8, 4, 2048, 64]⟩
/-- One expert's slab of the stack. -/
abbrev Slab : Shape := ⟨4, ![1, 4, 2048, 64]⟩
/-- One expert's output, (b, s, r). -/
abbrev Out : Shape := ⟨3, ![4, 2048, 64]⟩

/-- Expert `e`'s output row `r` for token `(b, s)`. -/
def proj (x : FVec Ideal Tokens .f32) (W : FVec Ideal Weights .f32) (e : Fin 8) (b : Fin 4) (s : Fin 2048) (r : Fin 64) : EReal :=
  ∑ k : Fin 4096, x (ix3 b s k) * W (ix3 e r k)

/-- All experts' outputs as one array, expert axis first. -/
def stacked (x : FVec Ideal Tokens .f32) (W : FVec Ideal Weights .f32) : FVec Ideal Stacked .f32 :=
  fun j => proj x W (j 0) (j 1) (j 2) (j 3)

/-- Slab `off 0` of a stack, as a [4, 2048, 64] array: what each program returns for one expert. -/
def expert (off : Fin 4 → Nat) (hs : Stacked.Slices off Slab) (hc : Slab.ShapeCasts Out) (Z : FVec Ideal Stacked .f32) :
    FVec Ideal Out .f32 :=
  shapeCast Out (extractStridedSlice Slab off Z hs) hc

/-- The product of a matrix of rows with a matrix of columns, entry by entry. -/
def flat (xr : FVec Ideal Rows .f32) (wc : FVec Ideal WCols .bf16) : FVec Ideal Flat .f32 :=
  fun j => ∑ k : Fin 4096, xr (ix2 (j 0) k) * wc (ix2 k (j 1))

/-- Row 2048·b + s of the token matrix is token (b, s). -/
theorem rows_apply (x : FVec Ideal Tokens .f32) (h : Tokens.ShapeCasts Rows) (b : Fin 4) (s : Fin 2048) (k : Fin 4096)
    (M : Fin 8192) (hM : M.val = b.val * 2048 + s.val) :
    shapeCast Rows x h (ix2 M k) = x (ix3 b s k) :=
  shapeCast_apply x h (ix2 M k) (ix3 b s k) (by
    rw [Shape.rowMajor_val_three, Shape.rowMajor_val_two]
    show (b.val * 2048 + s.val) * 4096 + k.val = M.val * 4096 + k.val
    rw [hM])

/-- Column 64·e + r of the weight matrix is weight row (e, r); narrowing to bf16 changes no value over the
    extended reals. -/
theorem cols_apply (W : FVec Ideal Weights .f32) (h2 : Weights.ShapeCasts WRows) (h3 : WRows.Transposes [1, 0] WCols)
    (h4 : FTy.bits .bf16 < FTy.bits .f32) (e : Fin 8) (r : Fin 64) (k : Fin 4096)
    (N : Fin 512) (hN : N.val = e.val * 64 + r.val) :
    (truncf .bf16 (transpose WCols [1, 0] (shapeCast WRows W h2) h3) h4 : FVec Ideal WCols .bf16) (ix2 k N) = W (ix3 e r k) := by
  show transpose WCols [1, 0] (shapeCast WRows W h2) h3 (ix2 k N) = _
  refine (transpose_apply [1, 0] (shapeCast WRows W h2) h3 (ix2 k N) (ix2 N k) (fun c => match c with
    | ⟨0, _⟩ => rfl
    | ⟨1, _⟩ => rfl)).trans ?_
  exact shapeCast_apply W h2 (ix2 N k) (ix3 e r k) (by
    rw [Shape.rowMajor_val_three, Shape.rowMajor_val_two]
    show (e.val * 64 + r.val) * 4096 + k.val = N.val * 4096 + k.val
    rw [hN])

/-- The one matrix product, read back as (b, s, e, r) with the expert axis moved to the front, is the stack of
    all experts' outputs. -/
theorem stacked_of_flat (x : FVec Ideal Tokens .f32) (W : FVec Ideal Weights .f32)
    (h1 : Tokens.ShapeCasts Rows) (h2 : Weights.ShapeCasts WRows) (h3 : WRows.Transposes [1, 0] WCols)
    (h4 : FTy.bits .bf16 < FTy.bits .f32) (h5 : Flat.ShapeCasts Split) (h6 : Split.Transposes [2, 0, 1, 3] Stacked) :
    transpose Stacked [2, 0, 1, 3]
        (shapeCast Split (flat (shapeCast Rows x h1) (truncf .bf16 (transpose WCols [1, 0] (shapeCast WRows W h2) h3) h4)) h5) h6
      = stacked x W := by
  funext j
  obtain ⟨e, b, s, r, rfl⟩ : ∃ (e : Fin 8) (b : Fin 4) (s : Fin 2048) (r : Fin 64), j = ix4 e b s r :=
    ⟨j 0, j 1, j 2, j 3, eq_ix4 j⟩
  have hM : b.val * 2048 + s.val < 8192 := by have := b.isLt; have := s.isLt; omega
  have hN : e.val * 64 + r.val < 512 := by have := e.isLt; have := r.isLt; omega
  refine (transpose_apply [2, 0, 1, 3] _ h6 (ix4 e b s r) (ix4 b s e r) (fun c => match c with
    | ⟨0, _⟩ => rfl
    | ⟨1, _⟩ => rfl
    | ⟨2, _⟩ => rfl
    | ⟨3, _⟩ => rfl)).trans ?_
  refine (shapeCast_apply _ h5 (ix4 b s e r) (ix2 (⟨b.val * 2048 + s.val, hM⟩ : Fin 8192) (⟨e.val * 64 + r.val, hN⟩ : Fin 512)) (by
    rw [Shape.rowMajor_val_two, Shape.rowMajor_val_four]
    show (b.val * 2048 + s.val) * 512 + (e.val * 64 + r.val) = ((b.val * 2048 + s.val) * 8 + e.val) * 64 + r.val
    omega)).trans ?_
  show (∑ k : Fin 4096, _ * _) = proj x W e b s r
  unfold proj
  refine Finset.sum_congr rfl fun k _ => ?_
  exact congrArg₂ (· * ·) (rows_apply x h1 b s k _ rfl) (cols_apply W h2 h3 h4 e r k _ rfl)

end Cert.Experts

end
-- ==== Proof.KernelProduct.lean ====
/-
  From blocks to the array: what the product array holds when the region ends.

  The region walks 16 grid points. At point t it is handed rows 512·t … 512·t + 511 of the token-row matrix and
  the whole matrix of weight columns, and writes back rows 512·t … 512·t + 511 of the product array. So each
  written block is the restriction, to its rows, of ONE function of the two whole matrices — the plain matrix
  product `flat` — and since the 16 row bands tile the 8192 rows, the array ends holding exactly that product.
-/
import proofs.«172879_j14070312862079_1_alg».proof.Proof.Gen.KernelIdeal.Frame
import proofs.«172879_j14070312862079_1_alg».proof.Proof.KernelBlock
import proofs.«172879_j14070312862079_1_alg».proof.Proof.Experts

set_option maxRecDepth 16384

noncomputable section

namespace Cert.KernelIdeal.Product

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.Experts

variable (m : (ℓ : Loc nD τ sig) → Buf (Elt Ideal) ℓ)

/-- The token-row matrix as the region finds it. -/
abbrev rowsArr (c : Dev nD) : FVec Ideal S8192x4096 .f32 := V m c main_v0
/-- The weight-column matrix as the region finds it. -/
abbrev colsArr (c : Dev nD) : FVec Ideal S4096x512 .bf16 := V m c main_v3

theorem offsets_zero : (![0, 0] : Fin 2 → Nat) = fun _ => 0 := funext fun a => by fin_cases a <;> rfl

/-- The printed index maps over the grid: the rows' block moves with the output's block down axis 0, every other
    block index is 0. -/
theorem index_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0 :=
  (by decide +kernel : ∀ t : Fin grid0.N, _)

/-- Every one of the 16 row bands is some point's. -/
theorem band_onto : ∀ (q0 : Fin 16), ∃ t : Fin cfg0.N, win0_2.index t = ![q0.val, 0] :=
  (by decide +kernel : ∀ (q0 : Fin 16), ∃ t : Fin grid0.N, win0_2.index t = ![q0.val, 0])

/-- What point `t` writes back is block `t` of the product of the two matrices as the region finds them. -/
theorem flushed_eq (c : Dev nD) (t : Fin cfg0.N) :
    (dats m 0 c).flushed 2 t = ((cfg0.win 2).blk t).view.read (Elt Ideal) (flat (rowsArr m c) (colsArr m c)) := by
  show (cfg0.win 2).cut (grid0.coords t) ((dats m 0 c).after 2 t) = _
  rw [after0_2]
  unfold out0_2
  rw [View.canon_unit_zero offsets_zero]
  simp only [View.ld_unit_zero (S := S512x4096) offsets_zero, View.ld_unit_zero (S := S4096x512) offsets_zero]
  obtain ⟨e0, e1, e2, e3, e4⟩ := index_facts t
  funext j
  show k0_pay1 (F := Ideal) (iblk m c 0 t) (iblk m c 1 t) j = flat (rowsArr m c) (colsArr m c) (((cfg0.win 2).blk t).view.emb j)
  refine (Block.pay_at (iblk m c 0 t) (iblk m c 1 t) j).trans ?_
  unfold flat
  refine Finset.sum_congr rfl fun k _ => ?_
  have hr : (iblk m c 0 t : Vec Ideal S512x4096 .f32) (ix2 (j 0) k)
      = rowsArr m c (ix2 ((((cfg0.win 2).blk t).view.emb j) 0) k) := by
    show V m c main_v0 (((cfg0.win 0).blk t).view.emb (ix2 (j 0) k)) = V m c main_v0 (ix2 ((((cfg0.win 2).blk t).view.emb j) 0) k)
    refine congrArg (V m c main_v0) (funext fun a => Fin.ext ?_)
    match a with
    | ⟨0, _⟩ => show win0_0.index t (0 : Fin 2) * 512 + 1 * (j 0).val = win0_2.index t (0 : Fin 2) * 512 + 1 * (j 0).val; omega
    | ⟨1, _⟩ => show win0_0.index t (1 : Fin 2) * 4096 + 1 * k.val = k.val; omega
  have hc : (iblk m c 1 t : Vec Ideal S4096x512 .bf16) (ix2 k (j 1))
      = colsArr m c (ix2 k ((((cfg0.win 2).blk t).view.emb j) 1)) := by
    show V m c main_v3 (((cfg0.win 1).blk t).view.emb (ix2 k (j 1))) = V m c main_v3 (ix2 k ((((cfg0.win 2).blk t).view.emb j) 1))
    refine congrArg (V m c main_v3) (funext fun a => Fin.ext ?_)
    match a with
    | ⟨0, _⟩ => show win0_1.index t (0 : Fin 2) * 4096 + 1 * k.val = k.val; omega
    | ⟨1, _⟩ => show win0_1.index t (1 : Fin 2) * 512 + 1 * (j 1).val = win0_2.index t (1 : Fin 2) * 512 + 1 * (j 1).val; omega
  exact congrArg₂ (fun a b : EReal => a * b) hr hc

/-- An index of the product array is in point `t`'s block iff each coordinate is in the block's range. -/
theorem mem_blk (t : Fin cfg0.N) (i : S8192x512.Idx) :
    i ∈ ((cfg0.win 2).blk t).view.set ↔ ∀ a : Fin 2, win0_2.index t a * S512x512.size a ≤ (i a).val ∧ (i a).val < win0_2.index t a * S512x512.size a + S512x512.size a := by
  show i ∈ ((View.whole main_v4).slice (win0_2.rect t)).set ↔ _
  rw [View.set_slice_whole, Rect.mem_set_unit]
  exact Iff.rfl

/-- The 16 row bands cover the array: row i lies in band i / 512. -/
theorem cover (i : S8192x512.Idx) :
    ∃ t : Fin cfg0.N, (cfg0.win 2).flush t = true ∧ i ∈ ((cfg0.win 2).blk t).view.set := by
  have hi0 : (i 0).val < 8192 := (i 0).isLt
  have hi1 : (i 1).val < 512 := (i 1).isLt
  obtain ⟨t, ht⟩ := band_onto ⟨(i 0).val / 512, by omega⟩
  have q0 : win0_2.index t (0 : Fin 2) = (i 0).val / 512 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 512 ≤ (i 1).val ∧ (i 1).val < win0_2.index t (1 : Fin 2) * 512 + 512; omega

/-- The product array after the region: the product of the two matrices as the region finds them. -/
theorem final (c : Dev nD) : (dats m 0 c).arrAt 2 cfg0.N = flat (rowsArr m c) (colsArr m c) :=
  (dats m 0 c).arrAt_eq_of_cover 2 _ (fun t _ => flushed_eq m c t) (cover)

end Cert.KernelIdeal.Product

end
-- ==== Proof.KernelResults.lean ====
/-
  The kernel program's results, read off its run.

  Before the region the host reshapes the tokens into the 8192 rows of a matrix and the 512 weight rows into the
  columns of a [4096, 512] matrix (narrowed to bf16: no change of value over the extended reals). After the region
  it reads the product array back as (b, s, e, r), moves the expert axis to the front, and returns slab e of that
  stack, reshaped to [4, 2048, 64], for e = 0 … 7. With the product array known (the product of the two matrices),
  the stack is `stacked x W` by index arithmetic alone, and every result is `expert` of it.
-/
import proofs.«172879_j14070312862079_1_alg».proof.Proof.Gen.KernelIdeal.Frame
import proofs.«172879_j14070312862079_1_alg».proof.Proof.KernelProduct
import proofs.«172879_j14070312862079_1_alg».proof.Proof.Experts
import Idealize.ShloMosaic.Lib.StableHlo.Run

set_option maxRecDepth 16384

noncomputable section

namespace Cert.KernelIdeal.Results

open Idealize.ShloMosaic Idealize.ShloMosaic.TcCoe Idealize.ShloMosaic.ValueIdx Idealize.ShloMosaic.StableHlo
open Idealize.SL Idealize.SL.Sem
open Idealize.ShloMosaic.Pipeline (Dat Cfg Window)
open Cert.KernelIdeal Cert.KernelIdeal.Gen Cert.Experts Cert.KernelIdeal.Product

variable (m : (ℓ : Loc nD τ sig) → Buf (Elt Ideal) ℓ)

/-- The region is handed the tokens as rows. -/
theorem rows_eq (c : Dev nD) :
    rowsArr m c = shapeCast S8192x4096 (m ((c : Thread nD τ).loc main_arg0)) shapeCasts_S4x2048x4096_S8192x4096 := by
  show StableHlo.after hostOps0 (fun b => m (c, b)) (Proc.devRef .tc main_v0) = _
  after_results
  rfl

/-- The region is handed the weight rows as columns. -/
theorem cols_eq (c : Dev nD) :
    colsArr m c = truncf .bf16 (transpose S4096x512 [1, 0] (shapeCast S512x4096 (m ((c : Thread nD τ).loc main_arg1)) shapeCasts_S8x64x4096_S512x4096) transposes_S512x4096_S4096x512_1_0) bitsLt_bf16_f32 := by
  show StableHlo.after hostOps0 (fun b => m (c, b)) (Proc.devRef .tc main_v3) = _
  after_results
  rfl

/-- Any slab of the product array read back as a stack is that slab of `stacked x W`. -/
theorem tail_of (c : Dev nD) (off : Fin 4 → Nat) (hs : S8x4x2048x64.Slices off S1x4x2048x64)
    (A : FVec Ideal S8192x512 .f32) (hA : A = flat (rowsArr m c) (colsArr m c)) :
    shapeCast S4x2048x64 (extractStridedSlice S1x4x2048x64 off
        (transpose S8x4x2048x64 [2, 0, 1, 3] (shapeCast S4x2048x8x64 A shapeCasts_S8192x512_S4x2048x8x64)
          transposes_S4x2048x8x64_S8x4x2048x64_2_0_1_3) hs) shapeCasts_S1x4x2048x64_S4x2048x64
      = expert off hs shapeCasts_S1x4x2048x64_S4x2048x64
          (stacked (m ((c : Thread nD τ).loc main_arg0)) (m ((c : Thread nD τ).loc main_arg1))) := by
  subst hA
  unfold expert
  rw [rows_eq, cols_eq, stacked_of_flat]

/- One result of the tail: the lines after the region applied to the region's exit contents, the product array
   there being the product of the two matrices. The same steps read every one of the eight results. -/
set_option hygiene false in
local macro "read_tail" : tactic => `(tactic| (
  unfold Pipeline.afterTail₀
  show StableHlo.after hostOps1 _ _ = _
  after_results
  exact tail_of m c _ _ _ ((Pipeline.withArrays_arr spec0 launch0.win.arr_inj c _ _ 2).trans (final m c))))

/-- Result 0 is expert 0's output. -/
theorem result0 (c : Dev nD) :
    Pipeline.afterTail₀ cfgs (dats m) 0 (V0 m) [hostOps1] c main_v8
      = expert ![0, 0, 0, 0] slices_S8x4x2048x64_S1x4x2048x64_0_0_0_0 shapeCasts_S1x4x2048x64_S4x2048x64
          (stacked (m ((c : Thread nD τ).loc main_arg0)) (m ((c : Thread nD τ).loc main_arg1))) := by
  read_tail

/-- Result 1 is expert 1's output. -/
theorem result1 (c : Dev nD) :
    Pipeline.afterTail₀ cfgs (dats m) 0 (V0 m) [hostOps1] c main_v10
      = expert ![1, 0, 0, 0] slices_S8x4x2048x64_S1x4x2048x64_1_0_0_0 shapeCasts_S1x4x2048x64_S4x2048x64
          (stacked (m ((c : Thread nD τ).loc main_arg0)) (m ((c : Thread nD τ).loc main_arg1))) := by
  read_tail

/-- Result 2 is expert 2's output. -/
theorem result2 (c : Dev nD) :
    Pipeline.afterTail₀ cfgs (dats m) 0 (V0 m) [hostOps1] c main_v12
      = expert ![2, 0, 0, 0] slices_S8x4x2048x64_S1x4x2048x64_2_0_0_0 shapeCasts_S1x4x2048x64_S4x2048x64
          (stacked (m ((c : Thread nD τ).loc main_arg0)) (m ((c : Thread nD τ).loc main_arg1))) := by
  read_tail

/-- Result 3 is expert 3's output. -/
theorem result3 (c : Dev nD) :
    Pipeline.afterTail₀ cfgs (dats m) 0 (V0 m) [hostOps1] c main_v14
      = expert ![3, 0, 0, 0] slices_S8x4x2048x64_S1x4x2048x64_3_0_0_0 shapeCasts_S1x4x2048x64_S4x2048x64
          (stacked (m ((c : Thread nD τ).loc main_arg0)) (m ((c : Thread nD τ).loc main_arg1))) := by
  read_tail

/-- Result 4 is expert 4's output. -/
theorem result4 (c : Dev nD) :
    Pipeline.afterTail₀ cfgs (dats m) 0 (V0 m) [hostOps1] c main_v16
      = expert ![4, 0, 0, 0] slices_S8x4x2048x64_S1x4x2048x64_4_0_0_0 shapeCasts_S1x4x2048x64_S4x2048x64
          (stacked (m ((c : Thread nD τ).loc main_arg0)) (m ((c : Thread nD τ).loc main_arg1))) := by
  read_tail

/-- Result 5 is expert 5's output. -/
theorem result5 (c : Dev nD) :
    Pipeline.afterTail₀ cfgs (dats m) 0 (V0 m) [hostOps1] c main_v18
      = expert ![5, 0, 0, 0] slices_S8x4x2048x64_S1x4x2048x64_5_0_0_0 shapeCasts_S1x4x2048x64_S4x2048x64
          (stacked (m ((c : Thread nD τ).loc main_arg0)) (m ((c : Thread nD τ).loc main_arg1))) := by
  read_tail

/-- Result 6 is expert 6's output. -/
theorem result6 (c : Dev nD) :
    Pipeline.afterTail₀ cfgs (dats m) 0 (V0 m) [hostOps1] c main_v20
      = expert ![6, 0, 0, 0] slices_S8x4x2048x64_S1x4x2048x64_6_0_0_0 shapeCasts_S1x4x2048x64_S4x2048x64
          (stacked (m ((c : Thread nD τ).loc main_arg0)) (m ((c : Thread nD τ).loc main_arg1))) := by
  read_tail

/-- Result 7 is expert 7's output. -/
theorem result7 (c : Dev nD) :
    Pipeline.afterTail₀ cfgs (dats m) 0 (V0 m) [hostOps1] c main_v22
      = expert ![7, 0, 0, 0] slices_S8x4x2048x64_S1x4x2048x64_7_0_0_0 shapeCasts_S1x4x2048x64_S4x2048x64
          (stacked (m ((c : Thread nD τ).loc main_arg0)) (m ((c : Thread nD τ).loc main_arg1))) := by
  read_tail

variable (ρ : Dev nD → PrngReg)

/-- The kernel program's run: it terminates with result e at expert e's output and the arguments unchanged. -/
theorem run : θ_run defs (onTc (τ := τ) (main (F := Ideal))) ⟨m, fun _ => 0, ρ⟩ fun r => ∀ c : Dev nD,
      r.2.mem ((c.tc : Thread nD τ).loc main_v8) = expert ![0, 0, 0, 0] slices_S8x4x2048x64_S1x4x2048x64_0_0_0_0 shapeCasts_S1x4x2048x64_S4x2048x64 (stacked (m ((c.tc : Thread nD τ).loc main_arg0)) (m ((c.tc : Thread nD τ).loc main_arg1)))
      ∧ r.2.mem ((c.tc : Thread nD τ).loc main_v10) = expert ![1, 0, 0, 0] slices_S8x4x2048x64_S1x4x2048x64_1_0_0_0 shapeCasts_S1x4x2048x64_S4x2048x64 (stacked (m ((c.tc : Thread nD τ).loc main_arg0)) (m ((c.tc : Thread nD τ).loc main_arg1)))
      ∧ r.2.mem ((c.tc : Thread nD τ).loc main_v12) = expert ![2, 0, 0, 0] slices_S8x4x2048x64_S1x4x2048x64_2_0_0_0 shapeCasts_S1x4x2048x64_S4x2048x64 (stacked (m ((c.tc : Thread nD τ).loc main_arg0)) (m ((c.tc : Thread nD τ).loc main_arg1)))
      ∧ r.2.mem ((c.tc : Thread nD τ).loc main_v14) = expert ![3, 0, 0, 0] slices_S8x4x2048x64_S1x4x2048x64_3_0_0_0 shapeCasts_S1x4x2048x64_S4x2048x64 (stacked (m ((c.tc : Thread nD τ).loc main_arg0)) (m ((c.tc : Thread nD τ).loc main_arg1)))
      ∧ r.2.mem ((c.tc : Thread nD τ).loc main_v16) = expert ![4, 0, 0, 0] slices_S8x4x2048x64_S1x4x2048x64_4_0_0_0 shapeCasts_S1x4x2048x64_S4x2048x64 (stacked (m ((c.tc : Thread nD τ).loc main_arg0)) (m ((c.tc : Thread nD τ).loc main_arg1)))
      ∧ r.2.mem ((c.tc : Thread nD τ).loc main_v18) = expert ![5, 0, 0, 0] slices_S8x4x2048x64_S1x4x2048x64_5_0_0_0 shapeCasts_S1x4x2048x64_S4x2048x64 (stacked (m ((c.tc : Thread nD τ).loc main_arg0)) (m ((c.tc : Thread nD τ).loc main_arg1)))
      ∧ r.2.mem ((c.tc : Thread nD τ).loc main_v20) = expert ![6, 0, 0, 0] slices_S8x4x2048x64_S1x4x2048x64_6_0_0_0 shapeCasts_S1x4x2048x64_S4x2048x64 (stacked (m ((c.tc : Thread nD τ).loc main_arg0)) (m ((c.tc : Thread nD τ).loc main_arg1)))
      ∧ r.2.mem ((c.tc : Thread nD τ).loc main_v22) = expert ![7, 0, 0, 0] slices_S8x4x2048x64_S1x4x2048x64_7_0_0_0 shapeCasts_S1x4x2048x64_S4x2048x64 (stacked (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨
      ((h c).2 main_v8 (Pipeline.mem_restRefs_of main_v8 (by decide) (by decide))).trans (result0 m c),
      ((h c).2 main_v10 (Pipeline.mem_restRefs_of main_v10 (by decide) (by decide))).trans (result1 m c),
      ((h c).2 main_v12 (Pipeline.mem_restRefs_of main_v12 (by decide) (by decide))).trans (result2 m c),
      ((h c).2 main_v14 (Pipeline.mem_restRefs_of main_v14 (by decide) (by decide))).trans (result3 m c),
      ((h c).2 main_v16 (Pipeline.mem_restRefs_of main_v16 (by decide) (by decide))).trans (result4 m c),
      ((h c).2 main_v18 (Pipeline.mem_restRefs_of main_v18 (by decide) (by decide))).trans (result5 m c),
      ((h c).2 main_v20 (Pipeline.mem_restRefs_of main_v20 (by decide) (by decide))).trans (result6 m c),
      ((h c).2 main_v22 (Pipeline.mem_restRefs_of main_v22 (by decide) (by decide))).trans (result7 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.Results

end
-- ==== Proof.RefResults.lean ====
/-
  The reference program's results, read off its run.

  The reference contracts the weights with the tokens over the feature axis, which gives an array indexed
  (e, r, b, s), moves the row axis r to the back, and returns slab e of that stack, reshaped to [4, 2048, 64].
  Entry (e, b, s, r) of its stack is Σ_d W[e, r, d] · x[b, s, d]: the factors of each term are those of
  `proj x W e b s r` in the other order, and products of extended reals commute, so the stack is `stacked x W`.
-/
import proofs.«172879_j14070312862079_1_alg».proof.Proof.Gen.ReferenceIdeal.Read
import proofs.«172879_j14070312862079_1_alg».proof.Proof.Experts

noncomputable section

namespace Cert.ReferenceIdeal.Results

open Idealize.ShloMosaic Idealize.ShloMosaic.TcCoe Idealize.ShloMosaic.ValueIdx Idealize.SL.Sem
open Cert.ReferenceIdeal Cert.ReferenceIdeal.Gen Cert.ReferenceIdeal.Read Cert.Experts

/-- The reference's stack of all experts' outputs is `stacked x W`. -/
theorem stack_eq (x : FVec Ideal S4x2048x4096 .f32) (W : FVec Ideal S8x64x4096 .f32) :
    transpose S8x4x2048x64 [0, 2, 3, 1]
        (Host.dotGeneral dot_S8x64x4096_S4x2048x4096_S8x64x4x2048_2_2_01_01_n_n none W x)
        transposes_S8x64x4x2048_S8x4x2048x64_0_2_3_1
      = stacked x W := by
  show val_main_v1 (F := Ideal) x W = _
  funext j
  rw [val_main_v1_apply, val_main_v0_apply]
  show _ = proj x W (j 0) (j 1) (j 2) (j 3)
  unfold proj
  refine Finset.sum_congr rfl fun k _ => ?_
  have hx : ridx_main_v0 (idx_main_v1 j) k = ix3 (j 1) (j 2) k := funext fun a => Fin.ext (by
    match a with
    | ⟨0, _⟩ => rfl
    | ⟨1, _⟩ => rfl
    | ⟨2, _⟩ => rfl)
  have hw : lidx_main_v0 (idx_main_v1 j) k = ix3 (j 0) (j 3) k := funext fun a => Fin.ext (by
    match a with
    | ⟨0, _⟩ => rfl
    | ⟨1, _⟩ => rfl
    | ⟨2, _⟩ => rfl)
  rw [hx, hw]
  exact mul_comm _ _

variable (m : (ℓ : Loc nD τ sig) → Buf (Elt Ideal) ℓ) (ρ : Dev nD → PrngReg)

/-- The reference program's run: it terminates with result e at expert e's output and the arguments unchanged. -/
theorem run : θ_run defs (onTc (τ := τ) (main (F := Ideal))) ⟨m, fun _ => 0, ρ⟩ fun r => ∀ c : Dev nD,
      r.2.mem ((c.tc : Thread nD τ).loc main_v3) = expert ![0, 0, 0, 0] slices_S8x4x2048x64_S1x4x2048x64_0_0_0_0 shapeCasts_S1x4x2048x64_S4x2048x64 (stacked (m ((c.tc : Thread nD τ).loc main_arg0)) (m ((c.tc : Thread nD τ).loc main_arg1)))
      ∧ r.2.mem ((c.tc : Thread nD τ).loc main_v5) = expert ![1, 0, 0, 0] slices_S8x4x2048x64_S1x4x2048x64_1_0_0_0 shapeCasts_S1x4x2048x64_S4x2048x64 (stacked (m ((c.tc : Thread nD τ).loc main_arg0)) (m ((c.tc : Thread nD τ).loc main_arg1)))
      ∧ r.2.mem ((c.tc : Thread nD τ).loc main_v7) = expert ![2, 0, 0, 0] slices_S8x4x2048x64_S1x4x2048x64_2_0_0_0 shapeCasts_S1x4x2048x64_S4x2048x64 (stacked (m ((c.tc : Thread nD τ).loc main_arg0)) (m ((c.tc : Thread nD τ).loc main_arg1)))
      ∧ r.2.mem ((c.tc : Thread nD τ).loc main_v9) = expert ![3, 0, 0, 0] slices_S8x4x2048x64_S1x4x2048x64_3_0_0_0 shapeCasts_S1x4x2048x64_S4x2048x64 (stacked (m ((c.tc : Thread nD τ).loc main_arg0)) (m ((c.tc : Thread nD τ).loc main_arg1)))
      ∧ r.2.mem ((c.tc : Thread nD τ).loc main_v11) = expert ![4, 0, 0, 0] slices_S8x4x2048x64_S1x4x2048x64_4_0_0_0 shapeCasts_S1x4x2048x64_S4x2048x64 (stacked (m ((c.tc : Thread nD τ).loc main_arg0)) (m ((c.tc : Thread nD τ).loc main_arg1)))
      ∧ r.2.mem ((c.tc : Thread nD τ).loc main_v13) = expert ![5, 0, 0, 0] slices_S8x4x2048x64_S1x4x2048x64_5_0_0_0 shapeCasts_S1x4x2048x64_S4x2048x64 (stacked (m ((c.tc : Thread nD τ).loc main_arg0)) (m ((c.tc : Thread nD τ).loc main_arg1)))
      ∧ r.2.mem ((c.tc : Thread nD τ).loc main_v15) = expert ![6, 0, 0, 0] slices_S8x4x2048x64_S1x4x2048x64_6_0_0_0 shapeCasts_S1x4x2048x64_S4x2048x64 (stacked (m ((c.tc : Thread nD τ).loc main_arg0)) (m ((c.tc : Thread nD τ).loc main_arg1)))
      ∧ r.2.mem ((c.tc : Thread nD τ).loc main_v17) = expert ![7, 0, 0, 0] slices_S8x4x2048x64_S1x4x2048x64_7_0_0_0 shapeCasts_S1x4x2048x64_S4x2048x64 (stacked (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => by
      obtain ⟨h0, h1, h2, h3, h4, h5, h6, h7, ha0, ha1⟩ := h c
      exact ⟨
        h0.trans (congrArg (expert ![0, 0, 0, 0] slices_S8x4x2048x64_S1x4x2048x64_0_0_0_0 shapeCasts_S1x4x2048x64_S4x2048x64) (stack_eq _ _)),
        h1.trans (congrArg (expert ![1, 0, 0, 0] slices_S8x4x2048x64_S1x4x2048x64_1_0_0_0 shapeCasts_S1x4x2048x64_S4x2048x64) (stack_eq _ _)),
        h2.trans (congrArg (expert ![2, 0, 0, 0] slices_S8x4x2048x64_S1x4x2048x64_2_0_0_0 shapeCasts_S1x4x2048x64_S4x2048x64) (stack_eq _ _)),
        h3.trans (congrArg (expert ![3, 0, 0, 0] slices_S8x4x2048x64_S1x4x2048x64_3_0_0_0 shapeCasts_S1x4x2048x64_S4x2048x64) (stack_eq _ _)),
        h4.trans (congrArg (expert ![4, 0, 0, 0] slices_S8x4x2048x64_S1x4x2048x64_4_0_0_0 shapeCasts_S1x4x2048x64_S4x2048x64) (stack_eq _ _)),
        h5.trans (congrArg (expert ![5, 0, 0, 0] slices_S8x4x2048x64_S1x4x2048x64_5_0_0_0 shapeCasts_S1x4x2048x64_S4x2048x64) (stack_eq _ _)),
        h6.trans (congrArg (expert ![6, 0, 0, 0] slices_S8x4x2048x64_S1x4x2048x64_6_0_0_0 shapeCasts_S1x4x2048x64_S4x2048x64) (stack_eq _ _)),
        h7.trans (congrArg (expert ![7, 0, 0, 0] slices_S8x4x2048x64_S1x4x2048x64_7_0_0_0 shapeCasts_S1x4x2048x64_S4x2048x64) (stack_eq _ _)),
        ha0, ha1⟩)
    (Cert.ReferenceIdeal.Value.run (F := Ideal) m ρ)

end Cert.ReferenceIdeal.Results

end
-- ==== Proof.lean ====
/-
  Eight experts' low-rank projections, computed two ways, agree over the extended reals.

  The inputs are tokens x[b, s, d] (4 × 2048 tokens of 4096 features) and expert weights W[e, r, d] (8 experts,
  64 rows each). Both programs return, for e = 0 … 7, the array out_e[b, s, r] = Σ_d x[b, s, d] · W[e, r, d].

  The reference contracts W with x over d, which gives (e, r, b, s), moves r to the back and cuts out slab e.
  The kernel program lays the tokens out as the 8192 rows of a matrix and all 512 weight rows as the columns of
  a [4096, 512] matrix (narrowed to bf16, which changes no value over the extended reals), multiplies the two in
  16 bands of 512 rows — one band per grid point, each into a zero accumulator —, reads entry
  (2048·b + s, 64·e + r) of the product back as (b, s, e, r), moves e to the front and cuts out slab e.

  Proof/Experts.lean states the common value (`stacked`, and `expert` for a slab of it) and proves the layout
  arithmetic of the kernel's route; Proof/KernelBlock.lean reads one band's product at an entry;
  Proof/KernelProduct.lean joins the 16 bands into the whole product array; Proof/KernelResults.lean reads the
  host lines around the region and states the kernel program's run; Proof/RefResults.lean does the same for the
  reference, where the only algebra is that the two factors of each term come in the other order. No step
  needs the inputs to be finite: sums and products of extended reals are commutative and associative as they are.
  The kernel program and its idealization run to the end and leave their arguments unchanged by the generated
  frames; the reference's frame is its run with the results dropped; the idealization rewrote nothing.
-/
import proofs.«172879_j14070312862079_1_alg».proof.Defs
import proofs.«172879_j14070312862079_1_alg».proof.Proof.Gen.Kernel
import proofs.«172879_j14070312862079_1_alg».proof.Proof.Gen.Kernel.Skeleton
import proofs.«172879_j14070312862079_1_alg».proof.Proof.Gen.Kernel.Launch
import proofs.«172879_j14070312862079_1_alg».proof.Proof.Gen.Kernel.Points
import proofs.«172879_j14070312862079_1_alg».proof.Proof.Gen.Kernel.Frame
import proofs.«172879_j14070312862079_1_alg».proof.Proof.Gen.KernelIdeal
import proofs.«172879_j14070312862079_1_alg».proof.Proof.Gen.KernelIdeal.Skeleton
import proofs.«172879_j14070312862079_1_alg».proof.Proof.Gen.KernelIdeal.Launch
import proofs.«172879_j14070312862079_1_alg».proof.Proof.Gen.KernelIdeal.Points
import proofs.«172879_j14070312862079_1_alg».proof.Proof.Gen.KernelIdeal.Frame
import proofs.«172879_j14070312862079_1_alg».proof.Proof.Gen.ReferenceIdeal
import proofs.«172879_j14070312862079_1_alg».proof.Proof.Gen.Pre_finite_inputs
import proofs.«172879_j14070312862079_1_alg».proof.Proof.Gen.ReferenceIdeal.Run
import proofs.«172879_j14070312862079_1_alg».proof.Proof.Gen.ReferenceIdeal.Read
import proofs.«172879_j14070312862079_1_alg».proof.Proof.KernelResults
import proofs.«172879_j14070312862079_1_alg».proof.Proof.RefResults
import Idealize.ShloMosaic.Adequacy
import Idealize.ShloMosaic.Init

noncomputable section

namespace Cert.Proof

open Idealize.ShloMosaic Idealize.SL.Sem

/-- The kernel program terminates and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, with what it says of the results dropped. -/
theorem frame_reference : Cert.frame_ReferenceIdeal := fun m ρ _ =>
  (θ_run Cert.ReferenceIdeal.defs _ _).mono (fun _ h c => by
      obtain ⟨-, -, -, -, -, -, -, -, ha0, ha1⟩ := h c
      exact ⟨ha0, ha1⟩)
    (Cert.ReferenceIdeal.Value.run (F := Ideal) m ρ)

/-- From memories that agree on the tokens and the weights, both programs end with result e at expert e's output
    of those tokens and weights: the same eight arrays. -/
theorem algebraic : Cert.algebraic_KernelIdeal_ReferenceIdeal := by
  intro m ρ m' ρ' _ hagree
  refine ⟨_, _, _, _, _, _, _, _, Cert.KernelIdeal.Results.run m ρ, ?_⟩
  refine (θ_run Cert.ReferenceIdeal.defs _ _).mono (fun _ h c => ?_) (Cert.ReferenceIdeal.Results.run m' ρ')
  obtain ⟨h0, h1, h2, h3, h4, h5, h6, h7, ha0, ha1⟩ := h c
  rw [(hagree c).1, (hagree c).2] at h0 h1 h2 h3 h4 h5 h6 h7
  exact ⟨h0, h1, h2, h3, h4, h5, h6, h7, ha0, ha1⟩

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
